-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩

class Facts : Prop where
  bcast_S_S64x2048x3 : S_.BroadcastsInDim S64x2048x3 (![] : Fin 0 → Fin S64x2048x3.rank)
  reducesTo_S64x2048x3_S_d0_1_2 : S64x2048x3.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S512x3 : S_.BroadcastsInDim S512x3 (![] : Fin 0 → Fin S512x3.rank)
  reducesTo_S512x3_S_d0_1 : S512x3.ReducesTo [0, 1] S_

variable [Facts]

def fn_part1 {F : FTy → Type} [FloatOps F] (main_v13 : IVec S_ 1) (main_v16 : IVec S512x3 1) : IVec S_ 1 :=
  let main_c_5 : IVec S_ 1 := constantI S_ 1 1#1
  let main_v17 : IVec S_ 1 := (fun x v => Host.reduce IntOp.andi x v reducesTo_S512x3_S_d0_1 h_S_) main_v16 main_c_5
  let main_v18 : IVec S_ 1 := andi main_v13 main_v17
  main_v18

def fn {F : FTy → Type} [FloatOps F] (main_arg0 : FVec F S64x2048x3 .f32) (main_arg1 : FVec F S64x2048 .f32) (main_arg2 : FVec F S512x3 .f32) (main_arg3 : FVec F S512x3 .f32) : IVec S_ 1 :=
  let main_v0 : FVec F S64x2048x3 .f32 := Host.absf main_arg0
  let main_cst : FVec F S_ .f32 := constant S_ .f32 0x7F800000#32
  let main_v1 : FVec F S64x2048x3 .f32 := broadcastInDim S64x2048x3 ![] bcast_S_S64x2048x3 main_cst
  let main_v2 : IVec S64x2048x3 1 := cmpf .olt main_v0 main_v1
  let main_c : IVec S_ 1 := constantI S_ 1 1#1
  let main_v3 : IVec S_ 1 := (fun x v => Host.reduce IntOp.andi x v reducesTo_S64x2048x3_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S512x3 .f32 := Host.absf main_arg2
  let main_cst_2 : FVec F S_ .f32 := constant S_ .f32 0x7F800000#32
  let main_v10 : FVec F S512x3 .f32 := broadcastInDim S512x3 ![] bcast_S_S512x3 main_cst_2
  let main_v11 : IVec S512x3 1 := cmpf .olt main_v9 main_v10
  let main_c_3 : IVec S_ 1 := constantI S_ 1 1#1
  let main_v12 : IVec S_ 1 := (fun x v => Host.reduce IntOp.andi x v reducesTo_S512x3_S_d0_1 h_S_) main_v11 main_c_3
  let main_v13 : IVec S_ 1 := andi main_v8 main_v12
  let main_v14 : FVec F S512x3 .f32 := Host.absf main_arg3
  let main_cst_4 : FVec F S_ .f32 := constant S_ .f32 0x7F800000#32
  let main_v15 : FVec F S512x3 .f32 := broadcastInDim S512x3 ![] bcast_S_S512x3 main_cst_4
  let main_v16 : IVec S512x3 1 := cmpf .olt main_v14 main_v15
  fn_part1 (F := F) main_v13 main_v16
-- ==== Kernel.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩
abbrev S512 : Shape := ⟨1, ![512]⟩
abbrev S1x512 : Shape := ⟨2, ![1, 512]⟩
abbrev S64x512 : Shape := ⟨2, ![64, 512]⟩
abbrev S8x2048x3 : Shape := ⟨3, ![8, 2048, 3]⟩
abbrev S8x2048 : Shape := ⟨2, ![8, 2048]⟩
abbrev S8x512 : Shape := ⟨2, ![8, 512]⟩
abbrev S8x256x3 : Shape := ⟨3, ![8, 256, 3]⟩
abbrev S8x256 : Shape := ⟨2, ![8, 256]⟩
abbrev S8x256x512 : Shape := ⟨3, ![8, 256, 512]⟩
abbrev S8x256x1 : Shape := ⟨3, ![8, 256, 1]⟩
abbrev S512x1 : Shape := ⟨2, ![512, 1]⟩
abbrev S1x1x512 : Shape := ⟨3, ![1, 1, 512]⟩

abbrev nBuf : Space → Nat
  | .hbm => 12
  | .vmem => 9
  | .smem => 0
  | _ => 0

abbrev bufTy : (tb : Table) → Fin (tcTables nBuf tb) → BufTy
  | .hbm, ⟨0, _⟩ => ⟨S64x2048x3, .f32⟩
  | .hbm, ⟨1, _⟩ => ⟨S64x2048, .f32⟩
  | .hbm, ⟨2, _⟩ => ⟨S512x3, .f32⟩
  | .hbm, ⟨3, _⟩ => ⟨S512x3, .f32⟩
  | .hbm, ⟨4, _⟩ => ⟨S512x3, .f32⟩
  | .hbm, ⟨5, _⟩ => ⟨S512x3, .f32⟩
  | .hbm, ⟨6, _⟩ => ⟨S512x3, .f32⟩
  | .hbm, ⟨7, _⟩ => ⟨S512x3, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S64x512, .f32⟩
  | .local _ .vmem, ⟨0, _⟩ => ⟨S8x2048x3, .f32⟩
  | .local _ .vmem, ⟨1, _⟩ => ⟨S8x2048x3, .f32⟩
  | .local _ .vmem, ⟨2, _⟩ => ⟨S8x2048, .f32⟩
  | .local _ .vmem, ⟨3, _⟩ => ⟨S8x2048, .f32⟩
  | .local _ .vmem, ⟨4, _⟩ => ⟨S512x3, .f32⟩
  | .local _ .vmem, ⟨5, _⟩ => ⟨S512x3, .f32⟩
  | .local _ .vmem, ⟨6, _⟩ => ⟨S1x512, .f32⟩
  | .local _ .vmem, ⟨7, _⟩ => ⟨S8x512, .f32⟩
  | .local _ .vmem, ⟨8, _⟩ => ⟨S8x512, .f32⟩
  | _, _ => ⟨S64x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c256_i32 : BitVec 32 := 256#32
  let v7 : BitVec 32 := Scalar.muli c0_i32 c256_i32
  v7
def k0_off1 (c0_i32 : BitVec 32) : Fin 3 → Nat :=
  let c0_5 : Index := 0#32
  let c256_i32 : BitVec 32 := 256#32
  let v7 : BitVec 32 := Scalar.muli c0_i32 c256_i32
  let v8 : BitVec 32 := v7
  let v9 : Index := Scalar.indexCast v8
  let c0_6 : Index := 0#32
  ![0, v9.toNat, 0]
def k0_off2 (c0_i32 : BitVec 32) : Fin 2 → Nat :=
  let c0_7 : Index := 0#32
  let c256_i32 : BitVec 32 := 256#32
  let v7 : BitVec 32 := Scalar.muli c0_i32 c256_i32
  let v8 : BitVec 32 := v7
  let v11 : Index := Scalar.indexCast v8
  ![0, v11.toNat]
def k0_mult2 : BitVec 32 :=
  let c1_i32 : BitVec 32 := 1#32
  let c256_i32_13 : BitVec 32 := 256#32
  let v86 : BitVec 32 := Scalar.muli c1_i32 c256_i32_13
  v86
def k0_mult3 : BitVec 32 :=
  let c2_i32 : BitVec 32 := 2#32
  let c256_i32_22 : BitVec 32 := 256#32
  let v165 : BitVec 32 := Scalar.muli c2_i32 c256_i32_22
  v165
def k0_mult4 : BitVec 32 :=
  let c3_i32 : BitVec 32 := 3#32
  let c256_i32_31 : BitVec 32 := 256#32
  let v244 : BitVec 32 := Scalar.muli c3_i32 c256_i32_31
  v244
def k0_mult5 : BitVec 32 :=
  let c4_i32 : BitVec 32 := 4#32
  let c256_i32_40 : BitVec 32 := 256#32
  let v323 : BitVec 32 := Scalar.muli c4_i32 c256_i32_40
  v323
def k0_mult6 : BitVec 32 :=
  let c5_i32 : BitVec 32 := 5#32
  let c256_i32_49 : BitVec 32 := 256#32
  let v402 : BitVec 32 := Scalar.muli c5_i32 c256_i32_49
  v402
def k0_mult7 : BitVec 32 :=
  let c6_i32 : BitVec 32 := 6#32
  let c256_i32_58 : BitVec 32 := 256#32
  let v481 : BitVec 32 := Scalar.muli c6_i32 c256_i32_58
  v481
def k0_mult8 : BitVec 32 :=
  let c7_i32 : BitVec 32 := 7#32
  let c256_i32_67 : BitVec 32 := 256#32
  let v560 : BitVec 32 := Scalar.muli c7_i32 c256_i32_67
  v560
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S512x3_S512_d1 : S512x3.ReducesTo [1] S512
  h_S_ : 0 < S_.numel
  shapeCasts_S512_S1x512 : S512.ShapeCasts S1x512
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S8x256x3 : 0 < S8x256x3.numel
  h_S8x256 : 0 < S8x256.numel
  slices_S8x256x3_o0_0_0_S8x256x1 : S8x256x3.Slices ![0, 0, 0] S8x256x1
  shapeCasts_S8x256x1_S8x256 : S8x256x1.ShapeCasts S8x256
  shapeCasts_S8x256_S8x256x1 : S8x256.ShapeCasts S8x256x1
  slices_S512x3_o0_0_S512x1 : S512x3.Slices ![0, 0] S512x1
  shapeCasts_S512x1_S512 : S512x1.ShapeCasts S512
  shapeCasts_S512_S1x1x512 : S512.ShapeCasts S1x1x512
  broadcasts_S8x256x1_S8x256x512 : S8x256x1.Broadcasts S8x256x512
  broadcasts_S1x1x512_S8x256x512 : S1x1x512.Broadcasts S8x256x512
  slices_S8x256x3_o0_0_1_S8x256x1 : S8x256x3.Slices ![0, 0, 1] S8x256x1
  slices_S512x3_o0_1_S512x1 : S512x3.Slices ![0, 1] S512x1
  slices_S8x256x3_o0_0_2_S8x256x1 : S8x256x3.Slices ![0, 0, 2] S8x256x1
  slices_S512x3_o0_2_S512x1 : S512x3.Slices ![0, 2] S512x1
  shapeCasts_S1x512_S1x1x512 : S1x512.ShapeCasts S1x1x512
  reduces_S8x256x512_S8x512 : S8x256x512.Reduces [1] S8x512
  inb_S8x512_S8x512_0_0 : ∀ a, (![0, 0] : Fin 2 → Nat) a + S8x512.size a ≤ S8x512.size a
  h_S8x512 : 0 < S8x512.numel
  hrank0 : 0 < grid0.rank
  k0_mult1_dvd : 256 ∣ k0_mult1.toNat
  k0_off1_inb : ∀ (r : Fin 8), ∀ a, (k0_off1 (BitVec.ofNat 32 r.val)) a + S8x256x3.size a ≤ S8x2048x3.size a
  k0_off2_inb : ∀ (r : Fin 8), ∀ a, (k0_off2 (BitVec.ofNat 32 r.val)) a + S8x256.size a ≤ S8x2048.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x3.size a ≤ S64x2048x3.size a
  hwx0_0 : ∀ i : grid0.Coords, EltTy.bits .f32 = 32 ∨ (Rect.block (s := S64x2048x3) S8x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x2048.size a
  hwx0_1 : ∀ i : grid0.Coords, EltTy.bits .f32 = 32 ∨ (Rect.block (s := S64x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S512x3.size a
  hwx0_2 : ∀ i : grid0.Coords, EltTy.bits .f32 = 32 ∨ (Rect.block (s := S512x3) S512x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S512x3.size a
  hwx0_3 : ∀ i : grid0.Coords, EltTy.bits .f32 = 32 ∨ (Rect.block (s := S512x3) S512x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x512.size a
  hwx0_5 : ∀ i : grid0.Coords, EltTy.bits .f32 = 32 ∨ (Rect.block (s := S64x512) S8x512.size (cc0_transform_5 i) (hinb0_5 i)).WholeWords (EltTy.packing .f32)

variable [Facts₀]

abbrev win0_0 : Pipeline.Window sig grid0 :=
  Pipeline.Window.ofSpec (Memref.whole main_arg0) S8x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2048x3 : Shape := ⟨3, ![64, 2048, 3]⟩
abbrev S64x2048 : Shape := ⟨2, ![64, 2048]⟩
abbrev S512x3 : Shape := ⟨2, ![512, 3]⟩
abbrev S_ : Shape := ⟨0, ![]⟩
abbrev S512 : Shape := ⟨1, ![512]⟩
abbrev S64x2048x512 : Shape := ⟨3, ![64, 2048, 512]⟩
abbrev S1x1x512 : Shape := ⟨3, ![1, 1, 512]⟩
abbrev S64x2048x1 : Shape := ⟨3, ![64, 2048, 1]⟩
abbrev S64x512 : Shape := ⟨2, ![64, 512]⟩

abbrev nBuf : Space → Nat
  | .hbm => 27
  | .vmem => 0
  | .smem => 0
  | _ => 0

abbrev bufTy : (tb : Table) → Fin (tcTables nBuf tb) → BufTy
  | .hbm, ⟨0, _⟩ => ⟨S64x2048x3, .f32⟩
  | .hbm, ⟨1, _⟩ => ⟨S64x2048, .f32⟩
  | .hbm, ⟨2, _⟩ => ⟨S512x3, .f32⟩
  | .hbm, ⟨3, _⟩ => ⟨S512x3, .f32⟩
  | .hbm, ⟨4, _⟩ => ⟨S512x3, .f32⟩
  | .hbm, ⟨5, _⟩ => ⟨S512x3, .f32⟩
  | .hbm, ⟨6, _⟩ => ⟨S512x3, .f32⟩
  | .hbm, ⟨7, _⟩ => ⟨S_, .f32⟩
  | .hbm, ⟨8, _⟩ => ⟨S512, .f32⟩
  | .hbm, ⟨9, _⟩ => ⟨S512x3, .f32⟩
  | .hbm, ⟨10, _⟩ => ⟨S64x2048x512, .f32⟩
  | .hbm, ⟨11, _⟩ => ⟨S64x2048x3, .f32⟩
  | .hbm, ⟨12, _⟩ => ⟨S64x2048x512, .f32⟩
  | .hbm, ⟨13, _⟩ => ⟨S1x1x512, .f32⟩
  | .hbm, ⟨14, _⟩ => ⟨S_, .f32⟩
  | .hbm, ⟨15, _⟩ => ⟨S64x2048x512, .f32⟩
  | .hbm, ⟨16, _⟩ => ⟨S64x2048x512, .f32⟩
  | .hbm, ⟨17, _⟩ => ⟨S64x2048x512, .f32⟩
  | .hbm, ⟨18, _⟩ => ⟨S64x2048x512, .f32⟩
  | .hbm, ⟨19, _⟩ => ⟨S64x2048x512, .f32⟩
  | .hbm, ⟨20, _⟩ => ⟨S64x2048x512, .f32⟩
  | .hbm, ⟨21, _⟩ => ⟨S64x2048x512, .f32⟩
  | .hbm, ⟨22, _⟩ => ⟨S64x2048x1, .f32⟩
  | .hbm, ⟨23, _⟩ => ⟨S64x2048x512, .f32⟩
  | .hbm, ⟨24, _⟩ => ⟨S64x2048x512, .f32⟩
  | .hbm, ⟨25, _⟩ => ⟨S_, .f32⟩
  | .hbm, ⟨26, _⟩ => ⟨S64x512, .f32⟩
  | _, _ => ⟨S64x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S512x3_S512_d1 : S512x3.ReducesTo [1] S512
  h_S_ : 0 < S_.numel
  bcast_S512_S1x1x512_2 : S512.BroadcastsInDim S1x1x512 (![2] : Fin 1 → Fin S1x1x512.rank)
  bcast_S_S64x2048x512 : S_.BroadcastsInDim S64x2048x512 (![] : Fin 0 → Fin S64x2048x512.rank)
  bcast_S1x1x512_S64x2048x512_0_1_2 : S1x1x512.BroadcastsInDim S64x2048x512 (![0, 1, 2] : Fin 3 → Fin S64x2048x512.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x2048x3_S512x3_S64x2048x512_2_1_01_0_n_n_wf : DotDims.WF S64x2048x3 S512x3 S64x2048x512 [2] [1] [0, 1] [0] [] []

variable [Facts₀]

def dot_S64x2048x3_S512x3_S64x2048x512_2_1_01_0_n_n : DotDims S64x2048x3 S512x3 S64x2048x512 where
  lhsContracting := [2]
  rhsContracting := [1]
  lhsNonContracting := [0, 1]
  rhsNonContracting := [0]
  lhsBatch := []
  rhsBatch := []
  wf := dot_S64x2048x3_S512x3_S64x2048x512_2_1_01_0_n_n_wf

class Facts : Prop extends Facts₀ where

variable [Facts]
-- ==== Proof.KernelBody.lean ====
/-
  One chunk of the kernel's body, and the whole body as a chain of eight chunks.

  The kernel sees a block of 8 batch rows: points x of shape [8, 2048, 3], a mask nd of shape [8, 2048], and the
  tables wc, s2 of shape [512, 3] and cc of shape [1, 512]. It walks the 2048 points in eight chunks of 256. For a
  chunk with points xc [8, 256, 3] and mask ndc [8, 256] it forms, for every (b, q, n),

      cross = ((0 + xc[b,q,0] wc[n,0]) + xc[b,q,1] wc[n,1]) + xc[b,q,2] wc[n,2]
      quad  = ((0 + xc[b,q,0]^2 s2[n,0]) + xc[b,q,1]^2 s2[n,1]) + xc[b,q,2]^2 s2[n,2]
      w     = exp (0 - ((cc[0,n] - 2 cross) + quad)) * ndc[b,q]

  and sums w over q. The block's result is ((((0 + chunk 0) + chunk 1) + ...) + chunk 7). The definitions below spell
  these values with the kernel's own vector operations, at any float instance, so that the value the body stores is
  this chain by unfolding alone.
-/
import proofs.«103090_j77747497992595_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- The zero array a chunk's two accumulations start from. -/
abbrev zero3 : FVec F S8x256x512 .f32 := broadcast S8x256x512 (Scalar.ofBits .f32 0x00000000#32)

/-- Coordinate 0 of a chunk's points, as an [8, 256] array. -/
def coord0 (xc : Vec F S8x256x3 .f32) : FVec F S8x256 .f32 :=
  shapeCast S8x256 (extractStridedSlice S8x256x1 ![0, 0, 0] xc slices_S8x256x3_o0_0_0_S8x256x1) shapeCasts_S8x256x1_S8x256
/-- Coordinate 1 of a chunk's points. -/
def coord1 (xc : Vec F S8x256x3 .f32) : FVec F S8x256 .f32 :=
  shapeCast S8x256 (extractStridedSlice S8x256x1 ![0, 0, 1] xc slices_S8x256x3_o0_0_1_S8x256x1) shapeCasts_S8x256x1_S8x256
/-- Coordinate 2 of a chunk's points. -/
def coord2 (xc : Vec F S8x256x3 .f32) : FVec F S8x256 .f32 :=
  shapeCast S8x256 (extractStridedSlice S8x256x1 ![0, 0, 2] xc slices_S8x256x3_o0_0_2_S8x256x1) shapeCasts_S8x256x1_S8x256

/-- Column 0 of a [512, 3] table, laid along the last axis of a [1, 1, 512] array. -/
def col0 (v : FVec F S512x3 .f32) : FVec F S1x1x512 .f32 :=
  shapeCast S1x1x512 (shapeCast S512 (extractStridedSlice S512x1 ![0, 0] v slices_S512x3_o0_0_S512x1) shapeCasts_S512x1_S512) shapeCasts_S512_S1x1x512
/-- Column 1 of a [512, 3] table. -/
def col1 (v : FVec F S512x3 .f32) : FVec F S1x1x512 .f32 :=
  shapeCast S1x1x512 (shapeCast S512 (extractStridedSlice S512x1 ![0, 1] v slices_S512x3_o0_1_S512x1) shapeCasts_S512x1_S512) shapeCasts_S512_S1x1x512
/-- Column 2 of a [512, 3] table. -/
def col2 (v : FVec F S512x3 .f32) : FVec F S1x1x512 .f32 :=
  shapeCast S1x1x512 (shapeCast S512 (extractStridedSlice S512x1 ![0, 2] v slices_S512x3_o0_2_S512x1) shapeCasts_S512x1_S512) shapeCasts_S512_S1x1x512

/-- The outer product u[b,q] cl[n] as an [8, 256, 512] array. -/
def term (u : FVec F S8x256 .f32) (cl : FVec F S1x1x512 .f32) : FVec F S8x256x512 .f32 :=
  mulf (broadcastTo S8x256x512 (shapeCast S8x256x1 u shapeCasts_S8x256_S8x256x1) broadcasts_S8x256x1_S8x256x512)
    (broadcastTo S8x256x512 cl broadcasts_S1x1x512_S8x256x512)

/-- The cross term: the three products of a point's coordinates with the table's columns, added to zero in order. -/
def cross (xc : Vec F S8x256x3 .f32) (v : FVec F S512x3 .f32) : FVec F S8x256x512 .f32 :=
  addf (addf (addf zero3 (term (coord0 xc) (col0 v))) (term (coord1 xc) (col1 v))) (term (coord2 xc) (col2 v))

/-- The quadratic term: the same with each coordinate squared. -/
def quad (xc : Vec F S8x256x3 .f32) (v : FVec F S512x3 .f32) : FVec F S8x256x512 .f32 :=
  addf (addf (addf zero3 (term (mulf (coord0 xc) (coord0 xc)) (col0 v))) (term (mulf (coord1 xc) (coord1 xc)) (col1 v)))
    (term (mulf (coord2 xc) (coord2 xc)) (col2 v))

/-- The weights of one chunk, an [8, 256, 512] array. -/
def weights (xc : Vec F S8x256x3 .f32) (ndc : Vec F S8x256 .f32) (wc s2 : FVec F S512x3 .f32) (cc : FVec F S1x512 .f32) :
    FVec F S8x256x512 .f32 :=
  mulf (exp (subf zero3 (addf (subf (broadcastTo S8x256x512 (shapeCast S1x1x512 cc shapeCasts_S1x512_S1x1x512) broadcasts_S1x1x512_S8x256x512)
      (mulf (broadcast S8x256x512 (Scalar.ofBits .f32 0x40000000#32)) (cross xc wc))) (quad xc s2))))
    (broadcastTo S8x256x512 (shapeCast S8x256x1 ndc shapeCasts_S8x256_S8x256x1) broadcasts_S8x256x1_S8x256x512)

/-- One chunk's contribution: its weights summed over the chunk's 256 points. -/
def chunk (xc : Vec F S8x256x3 .f32) (ndc : Vec F S8x256 .f32) (wc s2 : FVec F S512x3 .f32) (cc : FVec F S1x512 .f32) :
    FVec F S8x512 .f32 :=
  multiReduction .add [1] S8x512 (weights xc ndc wc s2 cc) 0x00000000#32 reduces_S8x256x512_S8x512 (.inl rfl) rfl

/-- The 256 points of a block of points that start at position o. -/
abbrev ptsAt (x : Vec F S8x2048x3 .f32) (o : Nat) (h : ∀ a, (![0, o, 0] : Fin 3 → Nat) a + S8x256x3.size a ≤ S8x2048x3.size a) :
    Vec F S8x256x3 .f32 :=
  View.ld x (Rect.unit (s := S8x2048x3) ![0, o, 0] S8x256x3.size h)

/-- The 256 mask entries that start at position o. -/
abbrev maskAt (nd : Vec F S8x2048 .f32) (o : Nat) (h : ∀ a, (![0, o] : Fin 2 → Nat) a + S8x256.size a ≤ S8x2048.size a) :
    Vec F S8x256 .f32 :=
  View.ld nd (Rect.unit (s := S8x2048) ![0, o] S8x256.size h)

/-- Chunk j of a block: the chunk of the 256 points from position 256 j on. -/
def chunkAt (x : Vec F S8x2048x3 .f32) (nd : Vec F S8x2048 .f32) (wc s2 : FVec F S512x3 .f32) (cc : FVec F S1x512 .f32) (o : Nat)
    (h : ∀ a, (![0, o, 0] : Fin 3 → Nat) a + S8x256x3.size a ≤ S8x2048x3.size a)
    (h' : ∀ a, (![0, o] : Fin 2 → Nat) a + S8x256.size a ≤ S8x2048.size a) : FVec F S8x512 .f32 :=
  chunk (ptsAt x o h) (maskAt nd o h') wc s2 cc

/-- The block's result: the eight chunks added to zero, first to last. -/
def total (x : Vec F S8x2048x3 .f32) (nd : Vec F S8x2048 .f32) (wc s2 : FVec F S512x3 .f32) (cc : FVec F S1x512 .f32) :
    FVec F S8x512 .f32 :=
  addf (addf (addf (addf (addf (addf (addf (addf (broadcast S8x512 (Scalar.ofBits .f32 0x00000000#32))
    (chunkAt x nd wc s2 cc 0 (by decide) (by decide))) (chunkAt x nd wc s2 cc 256 (by decide) (by decide)))
    (chunkAt x nd wc s2 cc 512 (by decide) (by decide))) (chunkAt x nd wc s2 cc 768 (by decide) (by decide)))
    (chunkAt x nd wc s2 cc 1024 (by decide) (by decide))) (chunkAt x nd wc s2 cc 1280 (by decide) (by decide)))
    (chunkAt x nd wc s2 cc 1536 (by decide) (by decide))) (chunkAt x nd wc s2 cc 1792 (by decide) (by decide))

theorem hz : (![0, 0] : Fin 2 → Nat) = fun _ => 0 := funext fun a => by fin_cases a <;> rfl

/-- What the body leaves in the output's staging buffer: the chain of the eight chunks of its input blocks. -/
theorem out_eq (c : Dev nD) (i : grid0.Coords) (a1 : Memref sig .tc .vmem S8x2048x3 .f32) (h1 : a1.IsWhole) (a2 : Memref sig .tc .vmem S8x2048 .f32) (h2 : a2.IsWhole) (a3 : Memref sig .tc .vmem S512x3 .f32) (h3 : a3.IsWhole) (a4 : Memref sig .tc .vmem S512x3 .f32) (h4 : a4.IsWhole) (a5 : Memref sig .tc .vmem S1x512 .f32) (h5 : a5.IsWhole) (a6 : Memref sig .tc .vmem S8x512 .f32) (h6 : a6.IsWhole)
    (x0 : Vec F S8x2048x3 .f32) (x1 : Vec F S8x2048 .f32) (x2 : Vec F S512x3 .f32) (x3 : Vec F S512x3 .f32) (x4 : Vec F S1x512 .f32) :
    out0_A_5 c i a1 h1 a2 h2 a3 h3 a4 h4 a5 h5 a6 h6 x0 x1 x2 x3 x4
      = total x0 x1 (shapeCast S512x3 x2 shapeCasts_S512x3_S512x3) (shapeCast S512x3 x3 shapeCasts_S512x3_S512x3)
          (shapeCast S1x512 x4 shapeCasts_S1x512_S1x512) := by
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x3) hz, View.ld_unit_zero (S := S1x512) hz]
  rfl

end Cert.KernelIdeal.Body

end
-- ==== Proof.Spec.lean ====
/-
  The function both programs compute, on the extended reals.

  For a point (x0, x1, x2) with mask value nd, and a centre whose three sharpness-weighted centre coordinates are
  c0, c1, c2, whose squared sharpnesses are s0, s1, s2 and whose constant term is cc, the weight is

      exp (-((cc - 2 (x0 c0 + x1 c1 + x2 c2)) + (x0^2 s0 + x1^2 s1 + x2^2 s2))) nd,

  the expanded form of exp (-sum_d s_d (centre_d - x_d)^2) nd. The result at (b, n) is the sum of the weights of the
  2048 points of batch row b against centre n. The literal 2 is kept as its float word: both programs carry the same
  word, so its value is never needed.
-/
import Idealize.ShloMosaic.PureOps.Ideal
import Idealize.ShloMosaic.Lib.ValueIdx

noncomputable section

namespace Cert.Spec

open Idealize.ShloMosaic Idealize.ShloMosaic.ValueIdx
open scoped BigOperators

/-- The literal 2.0. -/
abbrev two : EReal := Ideal.ofBits .f32 0x40000000#32

/-- The weight of one point against one centre. -/
def weight (x0 x1 x2 nd c0 c1 c2 s0 s1 s2 cc : EReal) : EReal :=
  Ideal.exp (-((cc - two * (x0 * c0 + x1 * c1 + x2 * c2)) + (x0 * x0 * s0 + x1 * x1 * s1 + x2 * x2 * s2))) * nd

/-- The weight of point p of batch row b against centre n, read off the arrays: points x [B, P, 3], mask nd [B, P],
    tables wc and s2 [N, 3], constant terms cc [N]. -/
def weightAt {B P N : Nat} (x : (⟨3, ![B, P, 3]⟩ : Shape).Idx → EReal) (nd : (⟨2, ![B, P]⟩ : Shape).Idx → EReal)
    (wc s2 : (⟨2, ![N, 3]⟩ : Shape).Idx → EReal) (cc : (⟨1, ![N]⟩ : Shape).Idx → EReal) (b : Fin B) (p : Fin P) (n : Fin N) : EReal :=
  weight (x (ix3 b p 0)) (x (ix3 b p 1)) (x (ix3 b p 2)) (nd (ix2 b p))
    (wc (ix2 n 0)) (wc (ix2 n 1)) (wc (ix2 n 2)) (s2 (ix2 n 0)) (s2 (ix2 n 1)) (s2 (ix2 n 2)) (cc (ix1 n))

/-- The result: at (b, n) the sum over the points p of row b of their weights against centre n. -/
def G (x : (⟨3, ![64, 2048, 3]⟩ : Shape).Idx → EReal) (nd : (⟨2, ![64, 2048]⟩ : Shape).Idx → EReal)
    (wc s2 : (⟨2, ![512, 3]⟩ : Shape).Idx → EReal) (cc : (⟨1, ![512]⟩ : Shape).Idx → EReal) :
    (⟨2, ![64, 512]⟩ : Shape).Idx → EReal :=
  fun i => ∑ p : Fin 2048, weightAt x nd wc s2 cc (i 0) p (i 1)

end Cert.Spec

end
-- ==== Proof.LibMidSum.lean ====
/-
  A general lemma about a sum along the middle axis of a rank-three array, read at the extended reals.

  A kernel's sum of an [A, B, C] array along axis 1 has, at the entry (p, c) of its [A, C] result, the sum over
  s of the entries (p, s, c): the reduced index with the summed coordinate put back in the middle.
-/
import Idealize.ShloMosaic.PureOps.Ideal.Laws
import Idealize.ShloMosaic.Lib.ValueIdx

noncomputable section

namespace Idealize.ShloMosaic.MidSum

open Idealize.ShloMosaic Idealize.ShloMosaic.ValueIdx
open scoped BigOperators

/-- A kernel's sum of an [A, B, C] array along axis 1, at the entry (p, c): the sum over s of the entries (p, s, c). -/
theorem midSum_apply {A B C : Nat} {φ : FTy} (src : FVec Ideal (⟨3, ![A, B, C]⟩ : Shape) φ) (acc : BitVec φ.bits)
    (h : Shape.Reduces (⟨3, ![A, B, C]⟩ : Shape) [1] (⟨2, ![A, C]⟩ : Shape)) (hφ : FKind.Formats φ)
    (hacc : acc = FKind.add.neutral φ hφ) (p : Fin A) (c : Fin C) :
    multiReduction .add [1] (⟨2, ![A, C]⟩ : Shape) src acc h hφ hacc (ix2 p c) = ∑ s : Fin B, (src (ix3 p s c) : EReal) := by
  refine (Ideal.multiReduction_add_single src acc h hφ hacc (ix2 p c)).trans ?_
  refine Finset.sum_congr rfl fun k _ => congrArg src ?_
  funext a
  exact Fin.ext (by match a with | ⟨0, _⟩ => rfl | ⟨1, _⟩ => rfl | ⟨2, _⟩ => rfl)

end Idealize.ShloMosaic.MidSum

end
-- ==== Proof.LibBlockPrefixSum.lean ====
/-
  A sum over `Fin N` taken block by block, in any commutative monoid.

  For a block width `B`, `blockPrefix B f n` is the sum of `f` over the first `n` blocks, that is over the
  positions below `B * n`. It starts at zero, grows by one block at a time,

      blockPrefix B f (n + 1) = blockPrefix B f n + ∑ j : Fin B, f (B * n + j),

  and once the blocks exhaust the range (`B * n = N`) it is the whole sum `∑ k : Fin N, f k`. Only the
  commutativity and associativity of the addition are used, so the statements hold on the extended reals,
  infinite entries included.

  How it is obtained: `f` is continued by zero beyond `N`, which makes the prefix a sum over an initial
  segment of the naturals; an initial segment of length `B * n + B` splits into the one of length `B * n`
  and a shifted segment of length `B`, and on positions below `N` the continuation is `f` itself.
-/
import Mathlib.Algebra.BigOperators.Fin

namespace BlockPrefixSum

open Finset
open scoped BigOperators

variable {M : Type*} [AddCommMonoid M] {N : ℕ}

/-- `f` continued by zero beyond `N`. -/
def continued (f : Fin N → M) (k : ℕ) : M := if h : k < N then f ⟨k, h⟩ else 0

/-- On a position below `N` the continuation is `f`. -/
theorem continued_of_lt (f : Fin N → M) (k : ℕ) (h : k < N) : continued f k = f ⟨k, h⟩ := dif_pos h

/-- The sum of `f` over its first `n` blocks of width `B`. -/
def blockPrefix (B : ℕ) (f : Fin N → M) (n : ℕ) : M := ∑ k ∈ range (B * n), continued f k

/-- No block: the empty sum. -/
theorem blockPrefix_zero (B : ℕ) (f : Fin N → M) : blockPrefix B f 0 = 0 := by
  unfold blockPrefix
  rw [Nat.mul_zero, range_zero, sum_empty]

/-- One more block: the prefix grows by that block's sum. -/
theorem blockPrefix_succ (B : ℕ) (f : Fin N → M) (n : ℕ) (h : B * n + B ≤ N) :
    blockPrefix B f (n + 1)
      = blockPrefix B f n + ∑ j : Fin B, f ⟨B * n + j.val, lt_of_lt_of_le (Nat.add_lt_add_left j.isLt _) h⟩ := by
  unfold blockPrefix
  rw [Nat.mul_succ, sum_range_add]
  congr 1
  rw [Finset.sum_range]
  exact Finset.sum_congr rfl fun j _ => continued_of_lt f _ _

/-- All the blocks: the whole sum. -/
theorem blockPrefix_all (B : ℕ) (f : Fin N → M) (n : ℕ) (h : B * n = N) :
    blockPrefix B f n = ∑ k : Fin N, f k := by
  unfold blockPrefix
  rw [h, Finset.sum_range]
  exact Finset.sum_congr rfl fun k _ => continued_of_lt f _ k.isLt

end BlockPrefixSum
-- ==== Proof.LibChunkedSum.lean ====
/-
  A sum over `Fin N` as the sum, over its blocks of width `B`, of each block's sum, in any commutative monoid.

  With `f` continued by zero beyond `N`, the sum of `f` over the first `n` blocks is the sum over the blocks
  s = 0 .. n - 1 of the sum over j < B of the continuation at B s + j: by induction on the number of blocks, one
  block at a time. Once the blocks exhaust the range (B n = N) that is the whole sum. Only commutativity and
  associativity of the addition are used, so this holds on the extended reals, infinite entries included.
-/
import proofs.«103090_j77747497992595_1_alg».proof.Proof.LibBlockPrefixSum

namespace BlockPrefixSum

open Finset
open scoped BigOperators

variable {M : Type*} [AddCommMonoid M] {N : ℕ}

/-- The sum over the first n blocks is the sum over those blocks of each block's sum. -/
theorem blockPrefix_eq_sum_blocks (B : ℕ) (f : Fin N → M) : ∀ n : ℕ, B * n ≤ N →
    blockPrefix B f n = ∑ s ∈ range n, ∑ j : Fin B, continued f (B * s + j.val)
  | 0, _ => by rw [blockPrefix_zero, sum_range_zero]
  | n + 1, h => by
    have h' : B * n + B ≤ N := by rw [Nat.mul_succ] at h; exact h
    rw [blockPrefix_succ B f n h', sum_range_succ,
      blockPrefix_eq_sum_blocks B f n (le_trans (Nat.le_add_right _ _) h')]
    refine congrArg (_ + ·) (Finset.sum_congr rfl fun j _ => ?_)
    exact (continued_of_lt f _ _).symm

/-- The whole sum, block by block. -/
theorem sum_eq_sum_blocks (B n : ℕ) (f : Fin N → M) (h : B * n = N) :
    ∑ k : Fin N, f k = ∑ s ∈ range n, ∑ j : Fin B, continued f (B * s + j.val) := by
  rw [← blockPrefix_all B f n h, blockPrefix_eq_sum_blocks B f n (le_of_eq h)]

end BlockPrefixSum
-- ==== Proof.ChunkValue.lean ====
/-
  One chunk, and the chain of eight chunks, read at an entry on the extended reals.

  The layout operations of a chunk (a coordinate of the points taken as an [8, 256] array, a column of a table laid
  along the last axis, the broadcasts to [8, 256, 512]) each read one entry of their operand; with them a chunk's
  weight array at (b, q, n) is the weight of point q of row b against centre n, a chunk is the sum of these over its
  256 points, and the chain of the eight chunks is the sum over all 2048 points: the chunks' point ranges
  [256 j, 256 j + 256) partition the range of points, and addition on the extended reals is commutative and associative.
-/
import proofs.«103090_j77747497992595_1_alg».proof.Proof.KernelBody
import proofs.«103090_j77747497992595_1_alg».proof.Proof.Spec
import proofs.«103090_j77747497992595_1_alg».proof.Proof.LibMidSum
import proofs.«103090_j77747497992595_1_alg».proof.Proof.LibChunkedSum
import Idealize.ShloMosaic.PureOps.Ideal.Laws
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

section Layout

variable {F : FTy → Type} [FloatOps F]

/-- Coordinate 0 of the points at (b, q) is the points array at (b, q, 0). -/
theorem coord0_apply (xc : Vec F S8x256x3 .f32) (b : Fin 8) (q : Fin 256) : coord0 xc (ix2 b q) = xc (ix3 b q 0) := by
  unfold coord0
  refine (shapeCast_apply _ _ (ix2 b q) (ix3 b q (0 : Fin 1)) ?_).trans ?_
  · rw [Shape.rowMajor_val_three, Shape.rowMajor_val_two]
    show (b.val * 256 + q.val) * 1 + 0 = b.val * 256 + q.val
    omega
  · exact extractStridedSlice_apply _ xc _ (ix3 b q (0 : Fin 1)) (ix3 b q 0) fun a => by
      match a with
      | ⟨0, _⟩ => show b.val = 0 + b.val; omega
      | ⟨1, _⟩ => show q.val = 0 + q.val; omega
      | ⟨2, _⟩ => show 0 = 0 + 0; rfl

/-- Coordinate 1 of the points at (b, q) is the points array at (b, q, 1). -/
theorem coord1_apply (xc : Vec F S8x256x3 .f32) (b : Fin 8) (q : Fin 256) : coord1 xc (ix2 b q) = xc (ix3 b q 1) := by
  unfold coord1
  refine (shapeCast_apply _ _ (ix2 b q) (ix3 b q (0 : Fin 1)) ?_).trans ?_
  · rw [Shape.rowMajor_val_three, Shape.rowMajor_val_two]
    show (b.val * 256 + q.val) * 1 + 0 = b.val * 256 + q.val
    omega
  · exact extractStridedSlice_apply _ xc _ (ix3 b q (0 : Fin 1)) (ix3 b q 1) fun a => by
      match a with
      | ⟨0, _⟩ => show b.val = 0 + b.val; omega
      | ⟨1, _⟩ => show q.val = 0 + q.val; omega
      | ⟨2, _⟩ => show 1 = 1 + 0; rfl

/-- Coordinate 2 of the points at (b, q) is the points array at (b, q, 2). -/
theorem coord2_apply (xc : Vec F S8x256x3 .f32) (b : Fin 8) (q : Fin 256) : coord2 xc (ix2 b q) = xc (ix3 b q 2) := by
  unfold coord2
  refine (shapeCast_apply _ _ (ix2 b q) (ix3 b q (0 : Fin 1)) ?_).trans ?_
  · rw [Shape.rowMajor_val_three, Shape.rowMajor_val_two]
    show (b.val * 256 + q.val) * 1 + 0 = b.val * 256 + q.val
    omega
  · exact extractStridedSlice_apply _ xc _ (ix3 b q (0 : Fin 1)) (ix3 b q 2) fun a => by
      match a with
      | ⟨0, _⟩ => show b.val = 0 + b.val; omega
      | ⟨1, _⟩ => show q.val = 0 + q.val; omega
      | ⟨2, _⟩ => show 2 = 2 + 0; rfl

/-- A [512, 1] column taken as [512] and then as [1, 1, 512] reads, at (0, 0, n), the column's entry n. -/
theorem lay_apply {α : Type} (w : S512x1.Idx → α) (n : Fin 512) :
    shapeCast S1x1x512 (shapeCast S512 w shapeCasts_S512x1_S512) shapeCasts_S512_S1x1x512 (ix3 (0 : Fin 1) (0 : Fin 1) n)
      = w (ix2 n (0 : Fin 1)) := by
  refine (shapeCast_apply _ _ (ix3 (0 : Fin 1) (0 : Fin 1) n) (ix1 n) ?_).trans ?_
  · rw [Shape.rowMajor_val_one, Shape.rowMajor_val_three]
    show n.val = (0 * 1 + 0) * 512 + n.val
    omega
  · exact shapeCast_apply w _ (ix1 n) (ix2 n (0 : Fin 1)) (by
      rw [Shape.rowMajor_val_two, Shape.rowMajor_val_one]
      show n.val * 1 + 0 = n.val
      omega)

/-- Column 0 of a table, laid along the last axis, at n is the table at (n, 0). -/
theorem col0_apply (v : FVec F S512x3 .f32) (n : Fin 512) : col0 v (ix3 (0 : Fin 1) (0 : Fin 1) n) = v (ix2 n 0) := by
  unfold col0
  exact (lay_apply _ n).trans (slice2_axis1_apply 0 v _ n (0 : Fin 1) (0 : Fin 3) rfl)

/-- Column 1 of a table, laid along the last axis, at n is the table at (n, 1). -/
theorem col1_apply (v : FVec F S512x3 .f32) (n : Fin 512) : col1 v (ix3 (0 : Fin 1) (0 : Fin 1) n) = v (ix2 n 1) := by
  unfold col1
  exact (lay_apply _ n).trans (slice2_axis1_apply 1 v _ n (0 : Fin 1) (1 : Fin 3) rfl)

/-- Column 2 of a table, laid along the last axis, at n is the table at (n, 2). -/
theorem col2_apply (v : FVec F S512x3 .f32) (n : Fin 512) : col2 v (ix3 (0 : Fin 1) (0 : Fin 1) n) = v (ix2 n 2) := by
  unfold col2
  exact (lay_apply _ n).trans (slice2_axis1_apply 2 v _ n (0 : Fin 1) (2 : Fin 3) rfl)

/-- An [8, 256] array broadcast along a new last axis reads, at (b, q, n), its entry (b, q). -/
theorem rows_apply {α : Type} (u : S8x256.Idx → α) (b : Fin 8) (q : Fin 256) (n : Fin 512) :
    broadcastTo S8x256x512 (shapeCast S8x256x1 u shapeCasts_S8x256_S8x256x1) broadcasts_S8x256x1_S8x256x512 (ix3 b q n) = u (ix2 b q) := by
  refine (broadcastTo_apply _ _ (ix3 b q n) (ix3 b q (0 : Fin 1)) fun a => ?_).trans ?_
  · match a with
    | ⟨0, _⟩ => show b.val = if (8 : Nat) = 1 then 0 else b.val; rw [if_neg (by decide)]
    | ⟨1, _⟩ => show q.val = if (256 : Nat) = 1 then 0 else q.val; rw [if_neg (by decide)]
    | ⟨2, _⟩ => show 0 = if (1 : Nat) = 1 then 0 else n.val; rw [if_pos rfl]
  · exact shapeCast_apply u _ (ix3 b q (0 : Fin 1)) (ix2 b q) (by
      rw [Shape.rowMajor_val_three, Shape.rowMajor_val_two]
      show b.val * 256 + q.val = (b.val * 256 + q.val) * 1 + 0
      omega)

/-- A [1, 1, 512] array broadcast over the first two axes reads, at (b, q, n), its entry (0, 0, n). -/
theorem lane_apply {α : Type} (cl : S1x1x512.Idx → α) (b : Fin 8) (q : Fin 256) (n : Fin 512) :
    broadcastTo S8x256x512 cl broadcasts_S1x1x512_S8x256x512 (ix3 b q n) = cl (ix3 (0 : Fin 1) (0 : Fin 1) n) := by
  refine broadcastTo_apply _ _ (ix3 b q n) (ix3 (0 : Fin 1) (0 : Fin 1) n) fun a => ?_
  match a with
  | ⟨0, _⟩ => show 0 = if (1 : Nat) = 1 then 0 else b.val; rw [if_pos rfl]
  | ⟨1, _⟩ => show 0 = if (1 : Nat) = 1 then 0 else q.val; rw [if_pos rfl]
  | ⟨2, _⟩ => show n.val = if (512 : Nat) = 1 then 0 else n.val; rw [if_neg (by decide)]

/-- The [1, 512] row of constant terms taken as [1, 1, 512] reads, at (0, 0, n), the row's entry (0, n). -/
theorem ccRow_apply {α : Type} (cc : S1x512.Idx → α) (n : Fin 512) :
    shapeCast S1x1x512 cc shapeCasts_S1x512_S1x1x512 (ix3 (0 : Fin 1) (0 : Fin 1) n) = cc (ix2 (0 : Fin 1) n) :=
  shapeCast_apply cc _ (ix3 (0 : Fin 1) (0 : Fin 1) n) (ix2 (0 : Fin 1) n) (by
    rw [Shape.rowMajor_val_two, Shape.rowMajor_val_three]
    show 0 * 512 + n.val = (0 * 1 + 0) * 512 + n.val
    omega)

/-- The 256 points from position o on, at (b, q, d), are the block's points at (b, o + q, d). -/
theorem ptsAt_apply (x : Vec F S8x2048x3 .f32) (o : Nat) (h : ∀ a, (![0, o, 0] : Fin 3 → Nat) a + S8x256x3.size a ≤ S8x2048x3.size a)
    (b : Fin 8) (q : Fin 256) (d : Fin 3) (p : Fin 2048) (hp : p.val = o + q.val) :
    ptsAt x o h (ix3 b q d) = x (ix3 b p d) :=
  congrArg x (funext fun a => Fin.ext (by
    match a with
    | ⟨0, _⟩ => show 0 + 1 * b.val = b.val; omega
    | ⟨1, _⟩ => show o + 1 * q.val = p.val; omega
    | ⟨2, _⟩ => show 0 + 1 * d.val = d.val; omega))

/-- The 256 mask entries from position o on, at (b, q), are the block's mask at (b, o + q). -/
theorem maskAt_apply (nd : Vec F S8x2048 .f32) (o : Nat) (h : ∀ a, (![0, o] : Fin 2 → Nat) a + S8x256.size a ≤ S8x2048.size a)
    (b : Fin 8) (q : Fin 256) (p : Fin 2048) (hp : p.val = o + q.val) :
    maskAt nd o h (ix2 b q) = nd (ix2 b p) :=
  congrArg nd (funext fun a => Fin.ext (by
    match a with
    | ⟨0, _⟩ => show 0 + 1 * b.val = b.val; omega
    | ⟨1, _⟩ => show o + 1 * q.val = p.val; omega))

end Layout

/-! ## On the extended reals -/

/-- The constant terms as a vector over the centres: the row's entries. -/
abbrev ccVec (cc : FVec Ideal S1x512 .f32) : (⟨1, ![512]⟩ : Shape).Idx → EReal := fun j => cc (ix2 (0 : Fin 1) (j 0))

/-- The outer product at (b, q, n). -/
theorem term_apply (u : FVec Ideal S8x256 .f32) (cl : FVec Ideal S1x1x512 .f32) (b : Fin 8) (q : Fin 256) (n : Fin 512) :
    term u cl (ix3 b q n) = u (ix2 b q) * cl (ix3 (0 : Fin 1) (0 : Fin 1) n) := by
  unfold term
  rw [mulf_apply, rows_apply, lane_apply]

/-- The cross term at (b, q, n): the three products, the leading zero gone. -/
theorem cross_apply (xc : Vec Ideal S8x256x3 .f32) (v : FVec Ideal S512x3 .f32) (b : Fin 8) (q : Fin 256) (n : Fin 512) :
    cross xc v (ix3 b q n)
      = xc (ix3 b q 0) * v (ix2 n 0) + xc (ix3 b q 1) * v (ix2 n 1) + xc (ix3 b q 2) * v (ix2 n 2) := by
  unfold cross
  rw [addf_apply, addf_apply, addf_apply, term_apply, term_apply, term_apply, coord0_apply, coord1_apply, coord2_apply,
    col0_apply, col1_apply, col2_apply]
  show Ideal.ofBits .f32 0x00000000#32 + _ + _ + _ = _
  rw [Ideal.ofBits_zero_f32, zero_add]

/-- The quadratic term at (b, q, n). -/
theorem quad_apply (xc : Vec Ideal S8x256x3 .f32) (v : FVec Ideal S512x3 .f32) (b : Fin 8) (q : Fin 256) (n : Fin 512) :
    quad xc v (ix3 b q n)
      = xc (ix3 b q 0) * xc (ix3 b q 0) * v (ix2 n 0) + xc (ix3 b q 1) * xc (ix3 b q 1) * v (ix2 n 1)
        + xc (ix3 b q 2) * xc (ix3 b q 2) * v (ix2 n 2) := by
  unfold quad
  rw [addf_apply, addf_apply, addf_apply, term_apply, term_apply, term_apply, mulf_apply, mulf_apply, mulf_apply,
    coord0_apply, coord1_apply, coord2_apply, col0_apply, col1_apply, col2_apply]
  show Ideal.ofBits .f32 0x00000000#32 + _ + _ + _ = _
  rw [Ideal.ofBits_zero_f32, zero_add]

/-- A chunk's weight array at (b, q, n) is the weight of the chunk's point (b, q) against centre n. -/
theorem weights_apply (xc : Vec Ideal S8x256x3 .f32) (ndc : Vec Ideal S8x256 .f32) (wc s2 : FVec Ideal S512x3 .f32)
    (cc : FVec Ideal S1x512 .f32) (b : Fin 8) (q : Fin 256) (n : Fin 512) :
    weights xc ndc wc s2 cc (ix3 b q n) = Cert.Spec.weightAt (B := 8) (P := 256) (N := 512) xc ndc wc s2 (ccVec cc) b q n := by
  unfold weights Cert.Spec.weightAt Cert.Spec.weight
  rw [mulf_apply, rows_apply]
  show FloatOps.exp (subf (F := Ideal) zero3 _ (ix3 b q n)) * _ = _
  rw [Ideal.exp_def, subf_apply, addf_apply, subf_apply, mulf_apply, lane_apply, ccRow_apply, cross_apply, quad_apply]
  show Ideal.exp (Ideal.ofBits .f32 0x00000000#32 - _) * _ = _
  rw [Ideal.ofBits_zero_f32, zero_sub]
  rfl

/-- A chunk at (b, n): the sum over its 256 points of their weights against centre n. -/
theorem chunk_apply (xc : Vec Ideal S8x256x3 .f32) (ndc : Vec Ideal S8x256 .f32) (wc s2 : FVec Ideal S512x3 .f32)
    (cc : FVec Ideal S1x512 .f32) (b : Fin 8) (n : Fin 512) :
    chunk xc ndc wc s2 cc (ix2 b n)
      = ∑ q : Fin 256, Cert.Spec.weightAt (B := 8) (P := 256) (N := 512) xc ndc wc s2 (ccVec cc) b q n := by
  unfold chunk
  refine (MidSum.midSum_apply (A := 8) (B := 256) (C := 512) (weights xc ndc wc s2 cc) _ _ _ _ b n).trans ?_
  exact Finset.sum_congr rfl fun q _ => weights_apply xc ndc wc s2 cc b q n

/-- Position q of the chunk that starts at o, among the block's 2048 points. -/
def at_ (o : Nat) (ho : o + 256 ≤ 2048) (q : Fin 256) : Fin 2048 := ⟨o + q.val, by have := q.isLt; omega⟩

/-- The chunk that starts at position o, at (b, n): the sum over its points, as points of the block. -/
theorem chunkAt_apply (x : Vec Ideal S8x2048x3 .f32) (nd : Vec Ideal S8x2048 .f32) (wc s2 : FVec Ideal S512x3 .f32)
    (cc : FVec Ideal S1x512 .f32) (o : Nat) (ho : o + 256 ≤ 2048)
    (h : ∀ a, (![0, o, 0] : Fin 3 → Nat) a + S8x256x3.size a ≤ S8x2048x3.size a)
    (h' : ∀ a, (![0, o] : Fin 2 → Nat) a + S8x256.size a ≤ S8x2048.size a) (b : Fin 8) (n : Fin 512) :
    chunkAt x nd wc s2 cc o h h' (ix2 b n)
      = ∑ q : Fin 256, Cert.Spec.weightAt (B := 8) (P := 2048) (N := 512) x nd wc s2 (ccVec cc) b (at_ o ho q) n := by
  unfold chunkAt
  rw [chunk_apply]
  refine Finset.sum_congr rfl fun q _ => ?_
  unfold Cert.Spec.weightAt
  rw [ptsAt_apply x o h b q 0 (at_ o ho q) rfl, ptsAt_apply x o h b q 1 (at_ o ho q) rfl,
    ptsAt_apply x o h b q 2 (at_ o ho q) rfl, maskAt_apply nd o h' b q (at_ o ho q) rfl]

end Cert.KernelIdeal.Body

end
-- ==== Proof.BlockValue.lean ====
/-
  The chain of the eight chunks, at an entry, is the sum over all 2048 points of the block.

  Chunk j covers the points 256 j, ..., 256 j + 255, so the eight chunks' ranges partition the 2048 points; the chain
  ((((0 + chunk 0) + chunk 1) + ...) + chunk 7) is the sum of the eight chunk sums, the leading zero dropped.
-/
import proofs.«103090_j77747497992595_1_alg».proof.Proof.ChunkValue

set_option maxRecDepth 16384

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

/-- Position q of chunk j among the 2048 points. -/
def pos (j : Fin 8) (q : Fin 256) : Fin 2048 := ⟨256 * j.val + q.val, by have := j.isLt; have := q.isLt; omega⟩

/-- A sum over the 2048 points, chunk by chunk. -/
theorem sum_by_chunks {M : Type*} [AddCommMonoid M] (f : Fin 2048 → M) :
    ∑ p : Fin 2048, f p = ∑ j : Fin 8, ∑ q : Fin 256, f (pos j q) := by
  rw [BlockPrefixSum.sum_eq_sum_blocks 256 8 f rfl, Finset.sum_range]
  exact Finset.sum_congr rfl fun j _ => Finset.sum_congr rfl fun q _ =>
    BlockPrefixSum.continued_of_lt f _ (pos j q).isLt

/-- The block's result at (b, n): the sum over the block's 2048 points of their weights against centre n. -/
theorem total_apply (x : Vec Ideal S8x2048x3 .f32) (nd : Vec Ideal S8x2048 .f32) (wc s2 : FVec Ideal S512x3 .f32)
    (cc : FVec Ideal S1x512 .f32) (b : Fin 8) (n : Fin 512) :
    total x nd wc s2 cc (ix2 b n)
      = ∑ p : Fin 2048, Cert.Spec.weightAt (B := 8) (P := 2048) (N := 512) x nd wc s2 (ccVec cc) b p n := by
  unfold total
  rw [addf_apply, addf_apply, addf_apply, addf_apply, addf_apply, addf_apply, addf_apply, addf_apply,
    chunkAt_apply x nd wc s2 cc 0 (by decide), chunkAt_apply x nd wc s2 cc 256 (by decide),
    chunkAt_apply x nd wc s2 cc 512 (by decide), chunkAt_apply x nd wc s2 cc 768 (by decide),
    chunkAt_apply x nd wc s2 cc 1024 (by decide), chunkAt_apply x nd wc s2 cc 1280 (by decide),
    chunkAt_apply x nd wc s2 cc 1536 (by decide), chunkAt_apply x nd wc s2 cc 1792 (by decide)]
  show Ideal.ofBits .f32 0x00000000#32 + _ + _ + _ + _ + _ + _ + _ + _ = _
  rw [Ideal.ofBits_zero_f32, zero_add, sum_by_chunks, Fin.sum_univ_eight]
  rfl

end Cert.KernelIdeal.Body

end
-- ==== Proof.KernelArray.lean ====
/-
  The kernel's result array, on the extended reals.

  Grid point t handles the batch rows 8 t, ..., 8 t + 7: its blocks of the points and of the mask are those rows of the
  two arrays, the three tables are passed whole, and what it writes back is rows 8 t, ..., 8 t + 7 of the result. By
  the block's value (the sum over the row's 2048 points of their weights) every point writes back the matching rows of
  one whole-array function, and the eight points' blocks cover the 64 rows; so the result array ends holding that
  function. The tables are what the operations in front of the call computed: s2 = sharpness^2, wc = s2 * centres, and
  the constant terms, the row sums of (s2 * centres) * centres, reshaped to one row.
-/
import proofs.«103090_j77747497992595_1_alg».proof.Proof.BlockValue
import proofs.«103090_j77747497992595_1_alg».proof.Proof.Gen.KernelIdeal.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Arr

open Cert.KernelIdeal Cert.KernelIdeal.Gen Cert.KernelIdeal.Body

variable (m : (ℓ : Loc nD τ sig) → Buf (Elt Ideal) ℓ) (ρ : Dev nD → PrngReg)

/-- Row b of grid point t's block, among the 64 batch rows. -/
def row (t : Fin cfg0.N) (b : Fin 8) : Fin 64 :=
  ⟨8 * t.val + b.val, by have := t.isLt; have hN : cfg0.N = 8 := N_0; have := b.isLt; omega⟩

/-- The printed index maps over the grid: the points, the mask and the result move with the grid point along the
    rows; the tables stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The blocks grid point t reads, at their literal types. -/
abbrev xblk (c : Dev nD) (t : Fin cfg0.N) : Vec Ideal S8x2048x3 .f32 := iblk m c 0 t
abbrev ndblk (c : Dev nD) (t : Fin cfg0.N) : Vec Ideal S8x2048 .f32 := iblk m c 1 t
abbrev wcblk (c : Dev nD) (t : Fin cfg0.N) : Vec Ideal S512x3 .f32 := iblk m c 2 t
abbrev s2blk (c : Dev nD) (t : Fin cfg0.N) : Vec Ideal S512x3 .f32 := iblk m c 3 t
abbrev ccblk (c : Dev nD) (t : Fin cfg0.N) : Vec Ideal S1x512 .f32 := iblk m c 4 t

/-- The block of points at (b, p, d) is the points array at row 8 t + b. -/
theorem xblk_apply (c : Dev nD) (t : Fin cfg0.N) (b : Fin 8) (p : Fin 2048) (d : Fin 3) :
    xblk m c t (ix3 b p d) = V m c main_arg0 (ix3 (row t b) p d) := by
  obtain ⟨e0, e1, e2, -⟩ := idx_facts t
  show V m c main_arg0 (((cfg0.win 0).blk t).view.emb (ix3 b p d)) = _
  refine congrArg (V m c main_arg0) (funext fun a => Fin.ext ?_)
  match a with
  | ⟨0, _⟩ => show win0_0.index t (0 : Fin 3) * 8 + 1 * b.val = 8 * t.val + b.val; rw [e0]; omega
  | ⟨1, _⟩ => show win0_0.index t (1 : Fin 3) * 2048 + 1 * p.val = p.val; rw [e1]; omega
  | ⟨2, _⟩ => show win0_0.index t (2 : Fin 3) * 3 + 1 * d.val = d.val; rw [e2]; omega

/-- The block of the mask at (b, p) is the mask at row 8 t + b. -/
theorem ndblk_apply (c : Dev nD) (t : Fin cfg0.N) (b : Fin 8) (p : Fin 2048) :
    ndblk m c t (ix2 b p) = V m c main_arg1 (ix2 (row t b) p) := by
  obtain ⟨-, -, -, e0, e1, -⟩ := idx_facts t
  show V m c main_arg1 (((cfg0.win 1).blk t).view.emb (ix2 b p)) = _
  refine congrArg (V m c main_arg1) (funext fun a => Fin.ext ?_)
  match a with
  | ⟨0, _⟩ => show win0_1.index t (0 : Fin 2) * 8 + 1 * b.val = 8 * t.val + b.val; rw [e0]; omega
  | ⟨1, _⟩ => show win0_1.index t (1 : Fin 2) * 2048 + 1 * p.val = p.val; rw [e1]; omega

/-- The table wc is passed whole. -/
theorem wcblk_eq (c : Dev nD) (t : Fin cfg0.N) : wcblk m c t = V m c main_v1 := by
  obtain ⟨-, -, -, -, -, e0, e1, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 512 + 1 * (y 0).val = (y 0).val; rw [e0]; omega
  | ⟨1, _⟩ => show win0_2.index t (1 : Fin 2) * 3 + 1 * (y 1).val = (y 1).val; rw [e1]; omega

/-- The table s2 is passed whole. -/
theorem s2blk_eq (c : Dev nD) (t : Fin cfg0.N) : s2blk m c t = V m c main_v0 := by
  obtain ⟨-, -, -, -, -, -, -, e0, e1, -⟩ := idx_facts t
  funext y
  show V m c main_v0 (((cfg0.win 3).blk t).view.emb y) = V m c main_v0 y
  refine congrArg (V m c main_v0) (funext fun a => Fin.ext ?_)
  match a with
  | ⟨0, _⟩ => show win0_3.index t (0 : Fin 2) * 512 + 1 * (y 0).val = (y 0).val; rw [e0]; omega
  | ⟨1, _⟩ => show win0_3.index t (1 : Fin 2) * 3 + 1 * (y 1).val = (y 1).val; rw [e1]; omega

/-- The row of constant terms is passed whole. -/
theorem ccblk_eq (c : Dev nD) (t : Fin cfg0.N) : ccblk m c t = V m c main_v5 := by
  obtain ⟨-, -, -, -, -, -, -, -, -, e0, e1, -⟩ := idx_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- A block whose points and mask are rows r b of whole arrays computes rows r b of the whole-array function. -/
theorem block_eq (X : S64x2048x3.Idx → EReal) (ND : S64x2048.Idx → EReal) (WC S2 : FVec Ideal S512x3 .f32)
    (CC : FVec Ideal S1x512 .f32) (xb : Vec Ideal S8x2048x3 .f32) (ndb : Vec Ideal S8x2048 .f32) (r : Fin 8 → Fin 64)
    (hx : ∀ b p d, xb (ix3 b p d) = X (ix3 (r b) p d)) (hnd : ∀ b p, ndb (ix2 b p) = ND (ix2 (r b) p))
    (b : Fin 8) (n : Fin 512) :
    total xb ndb WC S2 CC (ix2 b n) = Cert.Spec.G X ND WC S2 (ccVec CC) (ix2 (r b) n) := by
  rw [total_apply]
  unfold Cert.Spec.G
  refine Finset.sum_congr rfl fun p _ => ?_
  unfold Cert.Spec.weightAt
  rw [hx, hx, hx, hnd]

/-- The result as one function of the arrays the call finds. -/
abbrev result (c : Dev nD) : S64x512.Idx → EReal :=
  Cert.Spec.G (V m c main_arg0) (V m c main_arg1) (V m c main_v1) (V m c main_v0) (ccVec (V m c main_v5))

/-- What grid point t writes back is its rows of the result. -/
theorem flushed_eq (c : Dev nD) (t : Fin cfg0.N) :
    (dats m 0 c).flushed 5 t = ((cfg0.win 5).blk t).view.read (Elt Ideal) (result m c) := by
  rw [Cert.KernelIdeal.Value.flushed5_A, out_eq]
  refine funext fun (j : S8x512.Idx) => ?_
  obtain ⟨b, n, rfl⟩ : ∃ (b : Fin 8) (n : Fin 512), j = ix2 b n := ⟨j 0, j 1, eq_ix2 j⟩
  show total (xblk m c t) (ndblk m c t) (shapeCast S512x3 (wcblk m c t) shapeCasts_S512x3_S512x3)
      (shapeCast S512x3 (s2blk m c t) shapeCasts_S512x3_S512x3) (shapeCast S1x512 (ccblk m c t) shapeCasts_S1x512_S1x512) (ix2 b n)
    = result m c (((cfg0.win 5).blk t).view.emb (ix2 b n))
  rw [shapeCast_self, shapeCast_self, shapeCast_self, wcblk_eq, s2blk_eq, ccblk_eq]
  refine (block_eq (V m c main_arg0) (V m c main_arg1) _ _ _ _ _ (row t) (xblk_apply m c t) (ndblk_apply m c t) b n).trans ?_
  refine congrArg (result m c) (funext fun a => Fin.ext ?_)
  obtain ⟨-, -, -, -, -, -, -, -, -, -, -, e0, e1⟩ := idx_facts t
  match a with
  | ⟨0, _⟩ => show 8 * t.val + b.val = win0_5.index t (0 : Fin 2) * 8 + 1 * b.val; rw [e0]; omega
  | ⟨1, _⟩ => show n.val = win0_5.index t (1 : Fin 2) * 512 + 1 * n.val; rw [e1]; omega

/-- An index of the result is in grid point t's block iff each coordinate is in the block's range. -/
theorem mem_blk (t : Fin cfg0.N) (i : S64x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v6).slice (win0_5.rect t)).set ↔ _
  rw [View.set_slice_whole, Rect.mem_set_unit]
  exact Iff.rfl

/-- Every entry of the result is in the block of the grid point of its row's octet. -/
theorem cover (i : S64x512.Idx) : ∃ t : Fin cfg0.N, (cfg0.win 5).flush t = true ∧ i ∈ ((cfg0.win 5).blk t).view.set := by
  have hi0 : (i 0).val < 64 := (i 0).isLt
  have hi1 : (i 1).val < 512 := (i 1).isLt
  have hN : cfg0.N = 8 := N_0
  refine ⟨⟨(i 0).val / 8, by omega⟩, flush0_5 _, ?_⟩
  rw [mem_blk]
  obtain ⟨-, -, -, -, -, -, -, -, -, -, -, e0, e1⟩ := idx_facts ⟨(i 0).val / 8, by omega⟩
  intro a
  match a with
  | ⟨0, _⟩ =>
    show win0_5.index ⟨(i 0).val / 8, _⟩ (0 : Fin 2) * 8 ≤ (i 0).val ∧ (i 0).val < win0_5.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_5.index ⟨(i 0).val / 8, _⟩ (1 : Fin 2) * 512 ≤ (i 1).val ∧ (i 1).val < win0_5.index ⟨(i 0).val / 8, _⟩ (1 : Fin 2) * 512 + 512
    rw [e1]; omega

/-- The result array after the run. -/
theorem final (c : Dev nD) : (dats m 0 c).arrAt 5 cfg0.N = result m c :=
  (dats m 0 c).arrAt_eq_of_cover 5 (result m c) (fun t _ => flushed_eq m c t) cover

/-! ## The tables, from the operations in front of the call -/

/-- The four arguments as launched, at their literal types: points, mask, centres, sharpness. -/
abbrev a0 (c : Dev nD) : S64x2048x3.Idx → EReal := m ((c : Thread nD τ).loc main_arg0)
abbrev a1 (c : Dev nD) : S64x2048.Idx → EReal := m ((c : Thread nD τ).loc main_arg1)
abbrev a2 (c : Dev nD) : FVec Ideal S512x3 .f32 := m ((c : Thread nD τ).loc main_arg2)
abbrev a3 (c : Dev nD) : FVec Ideal S512x3 .f32 := m ((c : Thread nD τ).loc main_arg3)

/-- s2 is the squared sharpness. -/
theorem V_s2 (c : Dev nD) : (V m c main_v0 : S512x3.Idx → EReal) = mulf (a3 m c) (a3 m c) := by
  dsimp only [Gen.V, Gen.hostOps0]; after_results

/-- wc is s2 times the centres. -/
theorem V_wc (c : Dev nD) : (V m c main_v1 : S512x3.Idx → EReal) = mulf (mulf (a3 m c) (a3 m c)) (a2 m c) := by
  dsimp only [Gen.V, Gen.hostOps0]; after_results

/-- The constant terms: the row sums of (s2 * centres) * centres from zero, as a vector over the centres. -/
abbrev ccOf (cen sh : FVec Ideal S512x3 .f32) : S512.Idx → EReal :=
  Host.reduceAdd (F := Ideal) (mulf (mulf (mulf sh sh) cen) cen) (constant S_ .f32 0x00000000#32) reducesTo_S512x3_S512_d1 h_S_

/-- The row of constant terms is that vector, reshaped. -/
theorem V_cc (c : Dev nD) : (V m c main_v5 : S1x512.Idx → EReal)
    = shapeCast S1x512 (ccOf (a2 m c) (a3 m c)) shapeCasts_S512_S1x512 := by
  dsimp only [Gen.V, Gen.hostOps0]; after_results; rfl

/-- Its entries are the vector's. -/
theorem ccVec_cc (c : Dev nD) : ccVec (V m c main_v5) = ccOf (a2 m c) (a3 m c) := by
  funext j
  show V m c main_v5 (ix2 (0 : Fin 1) (j 0)) = _
  rw [V_cc, eq_ix1 j]
  exact shapeCast_apply _ _ (ix2 (0 : Fin 1) (j 0)) (ix1 (j 0)) (by
    rw [Shape.rowMajor_val_one, Shape.rowMajor_val_two]
    show (j 0).val = 0 * 512 + (j 0).val
    omega)

/-- The kernel's run: the result array ends at the sum of the weights, of the arguments' own tables. -/
theorem run : θ_run defs (onTc (τ := τ) (main (F := Ideal))) ⟨m, fun _ => 0, ρ⟩ fun r => ∀ c : Dev nD,
      r.2.mem ((c : Thread nD τ).loc main_v6)
        = Cert.Spec.G (a0 m c) (a1 m c) (mulf (mulf (a3 m c) (a3 m c)) (a2 m c)) (mulf (a3 m c) (a3 m c)) (ccOf (a2 m c) (a3 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final, ← V_wc, ← V_s2, ← ccVec_cc]
      show Cert.Spec.G (V m c main_arg0) (V m c main_arg1) _ _ _ = Cert.Spec.G (a0 m c) (a1 m c) _ _ _
      rw [V_main_arg0 m c, V_main_arg1 m c], (h c).2⟩)
    (Cert.KernelIdeal.Value.run_blocks m ρ)

end Cert.KernelIdeal.Arr

end
-- ==== Proof.Reference.lean ====
/-
  The reference computes the same function.

  Read one operation at a time, the reference's result at (b, n) is zero plus the sum over the 2048 points p of
  exp (-((cc[n] - 2 (sum_k x[b,p,k] wc[n,k])) + sum_k x[b,p,k]^2 s2[n,k])) nd[b,p], with the two contractions over the
  three coordinates written out as three-term sums: the weight of point p of row b against centre n.
-/
import proofs.«103090_j77747497992595_1_alg».proof.Proof.Gen.ReferenceIdeal.Read
import proofs.«103090_j77747497992595_1_alg».proof.Proof.Spec
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read

/-- The constant terms: the row sums of (s2 * centres) * centres from zero. -/
abbrev ccOf (cen sh : FVec Ideal S512x3 .f32) : S512.Idx → EReal :=
  Host.reduceAdd (F := Ideal) (mulf (mulf (mulf sh sh) cen) cen) (constant S_ .f32 0x00000000#32) reducesTo_S512x3_S512_d1 h_S_

/-- The reference's result is the sum of the weights, of the arguments' own tables. -/
theorem ref_eq (x0 : S64x2048x3.Idx → EReal) (x1 : S64x2048.Idx → EReal) (x2 x3 : FVec Ideal S512x3 .f32) :
    val_main_v19 (F := Ideal) x0 x1 x2 x3
      = Cert.Spec.G x0 x1 (mulf (mulf x3 x3) x2) (mulf x3 x3) (ccOf x2 x3) := by
  funext i
  obtain ⟨b, n, rfl⟩ : ∃ (b : Fin 64) (n : Fin 512), i = ix2 b n := ⟨i 0, i 1, eq_ix2 i⟩
  rw [val_main_v19_apply]
  unfold Cert.Spec.G
  show Ideal.ofBits .f32 0x00000000#32 + _ = _
  rw [Ideal.ofBits_zero_f32, zero_add]
  refine Finset.sum_congr rfl fun p _ => ?_
  have hl5 : ∀ k : Fin 3, lidx_main_v5 (idx_main_v19 (ix2 b n) p) k = ix3 b p k := fun k =>
    funext fun a => Fin.ext (by match a with | ⟨0, _⟩ => rfl | ⟨1, _⟩ => rfl | ⟨2, _⟩ => rfl)
  have hr5 : ∀ k : Fin 3, ridx_main_v5 (idx_main_v19 (ix2 b n) p) k = ix2 n k := fun k =>
    funext fun a => Fin.ext (by match a with | ⟨0, _⟩ => rfl | ⟨1, _⟩ => rfl)
  have hl7 : ∀ k : Fin 3, lidx_main_v7 (idx_main_v19 (ix2 b n) p) k = ix3 b p k := fun k =>
    funext fun a => Fin.ext (by match a with | ⟨0, _⟩ => rfl | ⟨1, _⟩ => rfl | ⟨2, _⟩ => rfl)
  have hr7 : ∀ k : Fin 3, ridx_main_v7 (idx_main_v19 (ix2 b n) p) k = ix2 n k := fun k =>
    funext fun a => Fin.ext (by match a with | ⟨0, _⟩ => rfl | ⟨1, _⟩ => rfl)
  have h16 : idx_main_v16 (idx_main_v17 (idx_main_v19 (ix2 b n) p)) = ix2 b p :=
    funext fun a => Fin.ext (by match a with | ⟨0, _⟩ => rfl | ⟨1, _⟩ => rfl)
  have h8 : idx_main_v8 (idx_main_v11 (idx_main_v19 (ix2 b n) p)) = ix1 n :=
    funext fun a => Fin.ext (by match a with | ⟨0, _⟩ => rfl)
  rw [val_main_v18_apply, val_main_v15_apply, val_main_v14_apply, val_main_v13_apply, val_main_v12_apply, val_main_v11_apply,
    val_main_v8_apply, val_main_v10_apply, val_main_v9_apply, val_main_cst_0_apply, val_main_v5_apply, val_main_v7_apply,
    val_main_v17_apply, val_main_v16_apply, Fin.sum_univ_three, Fin.sum_univ_three, hl5, hl5, hl5, hr5, hr5, hr5,
    hl7, hl7, hl7, hr7, hr7, hr7, h16, h8, val_main_v6_apply, val_main_v6_apply, val_main_v6_apply]
  rfl

end Cert.ReferenceIdeal.RefValue

end
-- ==== Proof.lean ====
/-
  A radial-basis kernel against its jnp reference, over the extended reals.

  Both programs take points x [64, 2048, 3], a mask nd [64, 2048], centres [512, 3] and sharpness [512, 3], form
  s2 = sharpness^2, wc = s2 * centres and cc[n] = sum_d (s2 * centres * centres)[n, d], and return

      out[b, n] = sum_p exp (-((cc[n] - 2 sum_d x[b,p,d] wc[n,d]) + sum_d x[b,p,d]^2 s2[n,d])) nd[b,p].

  The kernel takes eight batch rows per grid point and walks the 2048 points in eight chunks of 256, each chunk's
  two contractions over d spelt as three multiply-adds from zero and its sum over the chunk's points added to an
  accumulator that starts at zero; the reference contracts over d in one dot product and sums over all points at
  once. On the extended reals the two agree entry by entry: the leading zeros drop, 0 - y is -y, and the sum over the
  2048 points splits into the eight chunk sums because the chunks' ranges partition the points and addition is
  commutative and associative there, infinite entries included. No distributive law is used, so the inputs'
  finiteness is never needed. The idealization rewrote no operation, so that conjunct is trivial; the three frames are
  the generated runs.
-/
import proofs.«103090_j77747497992595_1_alg».proof.Defs
import proofs.«103090_j77747497992595_1_alg».proof.Proof.Gen.Kernel
import proofs.«103090_j77747497992595_1_alg».proof.Proof.Gen.Kernel.Skeleton
import proofs.«103090_j77747497992595_1_alg».proof.Proof.Gen.Kernel.Launch
import proofs.«103090_j77747497992595_1_alg».proof.Proof.Gen.Kernel.Points
import proofs.«103090_j77747497992595_1_alg».proof.Proof.Gen.Kernel.Frame
import proofs.«103090_j77747497992595_1_alg».proof.Proof.Gen.KernelIdeal
import proofs.«103090_j77747497992595_1_alg».proof.Proof.Gen.KernelIdeal.Skeleton
import proofs.«103090_j77747497992595_1_alg».proof.Proof.Gen.KernelIdeal.Launch
import proofs.«103090_j77747497992595_1_alg».proof.Proof.Gen.KernelIdeal.Points
import proofs.«103090_j77747497992595_1_alg».proof.Proof.Gen.KernelIdeal.Frame
import proofs.«103090_j77747497992595_1_alg».proof.Proof.Gen.ReferenceIdeal
import proofs.«103090_j77747497992595_1_alg».proof.Proof.Gen.Pre_finite_inputs
import proofs.«103090_j77747497992595_1_alg».proof.Proof.Gen.KernelIdeal.Value
import proofs.«103090_j77747497992595_1_alg».proof.Proof.Gen.ReferenceIdeal.Run
import proofs.«103090_j77747497992595_1_alg».proof.Proof.Gen.ReferenceIdeal.Read
import proofs.«103090_j77747497992595_1_alg».proof.Proof.KernelArray
import proofs.«103090_j77747497992595_1_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading at the extended reals. -/
theorem preserves : Cert.preserves_Kernel_KernelIdeal := trivial

/-- From memories that agree on the four arguments both programs end with the result array at the sum of the
    weights: the kernel's by its blocks' values and their cover of the array, the reference's read one operation at a
    time. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
